-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x128 .f32) (main_arg1 : FVec F S16384x16384 .f32) (main_arg2 : FVec F S128x128 .f32) (main_arg3 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S1x128 : Shape := ⟨2, ![1, 128]⟩
abbrev S1024x2048 : Shape := ⟨2, ![1024, 2048]⟩
abbrev S1024x128 : Shape := ⟨2, ![1024, 128]⟩
abbrev S1024x1 : Shape := ⟨2, ![1024, 1]⟩
abbrev S1024 : Shape := ⟨1, ![1024]⟩
abbrev S2048x128 : Shape := ⟨2, ![2048, 128]⟩

abbrev nBuf : Space → Nat
  | .hbm => 8
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S16384x128, .bf16⟩
  | .hbm, ⟨5, _⟩ => ⟨S128x128, .bf16⟩
  | .hbm, ⟨6, _⟩ => ⟨S1x128, .f32⟩
  | .hbm, ⟨7, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S16384x128, .bf16⟩
  | .local _ .vmem, ⟨3, _⟩ => ⟨S128x128, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x1, .f32⟩
  | .local _ .vmem, ⟨8, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v13 : BitVec 32 := Scalar.muli arg1 c2048_i32
  v13
def k0_off1 (i : grid0.Coords) : Fin 2 → Nat :=
  let arg1 : BitVec 32 := BitVec.ofNat 32 (i 1).val
  let c2048_i32 : BitVec 32 := 2048#32
  let v13 : BitVec 32 := Scalar.muli arg1 c2048_i32
  let v14 : BitVec 32 := v13
  let v15 : Index := Scalar.indexCast v14
  let c0_6 : Index := 0#32
  ![v15.toNat, 0]
def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S128_S1x128 : S128.ShapeCasts S1x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  h_S2048x128 : 0 < S2048x128.numel
  shapeCasts_S2048x128_S2048x128 : S2048x128.ShapeCasts S2048x128
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S_ : Shape := ⟨0, ![]⟩
abbrev S16384 : Shape := ⟨1, ![16384]⟩
abbrev S16384x1 : Shape := ⟨2, ![16384, 1]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S16384x16384, .f32⟩
  | .hbm, ⟨6, _⟩ => ⟨S16384x16384, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x16384, .f32⟩
  | .hbm, ⟨20, _⟩ => ⟨S16384x16384, .f32⟩
  | .hbm, ⟨21, _⟩ => ⟨S16384x128, .f32⟩
  | .hbm, ⟨22, _⟩ => ⟨S16384x128, .f32⟩
  | .hbm, ⟨23, _⟩ => ⟨S1x128, .f32⟩
  | .hbm, ⟨24, _⟩ => ⟨S16384x128, .f32⟩
  | .hbm, ⟨25, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Pieces.lean ====
/-
  What one grid point leaves behind, as pure functions of what it loads.

  The body keeps two accumulators between the points of a row block: the running normaliser `l` (one column) and
  the running weighted feature sum `acc`.  At the first column block both are set to zero and then updated; at every
  later block they are updated from what the block before left; at the last block the output block is computed from
  the two accumulators just updated.  Each lemma below reads one of these stores back: the zero store followed by the
  update reads as the update of zero, and the update read back inside the same point reads as the update itself.
-/
import proofs.«422669_j68161130988271_3_alg».proof.Proof.Gen.KernelIdeal.Frame
import Idealize.ShloMosaic.Lib.Pipeline.Value
import Idealize.ShloMosaic.Lib.Tactic

set_option maxRecDepth 16384

noncomputable section

namespace Cert.KernelAgg

open Cert.KernelIdeal Cert.KernelIdeal.Gen Idealize.ShloMosaic Idealize.ShloMosaic.TcCoe Idealize.ShloMosaic.Tactic Idealize.SL.Sem

variable {F : FTy → Type} [FloatOps F]

/-- The 2048 feature rows the point's column block meets: rows `2048·j … 2048·j + 2047` of the resident feature
    array, `j` the point's second grid coordinate. -/
def featRows (i : grid0.Coords) (x1 : Vec F S16384x128 .bf16) : Vec F S2048x128 .bf16 :=
  View.ld (S := S16384x128) x1 (Rect.unit (k0_off1 i) S2048x128.size (k0_off1_inb i))

theorem origin2 : (![0, 0] : Fin 2 → Nat) = fun _ => 0 := by
  funext a; fin_cases a <;> rfl

/-- First column block, normaliser: zero, then plus the block's row sums. -/
theorem piece_A_0 (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i) (x0 : Vec F S1024x2048 .f32) (x1 : Vec F S16384x128 .bf16) (x2 : Vec F S128x128 .bf16) (x3 : Vec F S1x128 .f32) :
    sout0_A_0 c i arg2 harg2 arg3 harg3 arg4 harg4 arg5 harg5 arg6 harg6 arg7 harg7 arg8 harg8 hc0 hc1 x0 x1 x2 x3 = k0_pay4 x0 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) origin2]
  simp only [View.readAt_eq_ld, harg2.read_unread, harg3.read_unread, harg4.read_unread, harg5.read_unread, harg7.read_unread, harg8.read_unread,
    View.ld_unit_zero (S := S1024x2048) origin2, View.ld_unit_zero (S := S1024x1) origin2, View.ld_unit_zero (S := S1024x128) origin2,
    View.ld_unit_zero (S := S128x128) origin2, View.ld_unit_zero (S := S1x128) origin2,
    View.readCov_unit_zero (S := S1024x1) _ origin2, View.readCov_unit_zero (S := S1024x128) _ origin2]
  first | rfl | skip

/-- First column block, feature sum: zero, then plus the block's product with its feature rows. -/
theorem piece_A_1 (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (hc0 : cond0_0 i) (hc1 : ¬cond0_1 i) (x0 : Vec F S1024x2048 .f32) (x1 : Vec F S16384x128 .bf16) (x2 : Vec F S128x128 .bf16) (x3 : Vec F S1x128 .f32) :
    sout0_A_1 c i arg2 harg2 arg3 harg3 arg4 harg4 arg5 harg5 arg6 harg6 arg7 harg7 arg8 harg8 hc0 hc1 x0 x1 x2 x3 = k0_pay5 x0 (featRows i x1) (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x128) origin2]
  simp only [View.readAt_eq_ld, harg2.read_unread, harg3.read_unread, harg4.read_unread, harg5.read_unread, harg7.read_unread, harg8.read_unread,
    View.ld_unit_zero (S := S1024x2048) origin2, View.ld_unit_zero (S := S1024x1) origin2, View.ld_unit_zero (S := S1024x128) origin2,
    View.ld_unit_zero (S := S128x128) origin2, View.ld_unit_zero (S := S1x128) origin2,
    View.readCov_unit_zero (S := S1024x1) _ origin2, View.readCov_unit_zero (S := S1024x128) _ origin2]
  first | rfl | skip

/-- A middle column block, normaliser: what the block before left plus the block's row sums. -/
theorem piece_B_0 (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i) (x0 : Vec F S1024x2048 .f32) (x1 : Vec F S16384x128 .bf16) (x2 : Vec F S128x128 .bf16) (x3 : Vec F S1x128 .f32) (xs0 : Vec F S1024x1 .f32) (xs1 : Vec F S1024x128 .f32) :
    sout0_B_0 c i arg2 harg2 arg3 harg3 arg4 harg4 arg5 harg5 arg6 harg6 arg7 harg7 arg8 harg8 hc0 hc1 x0 x1 x2 x3 xs0 xs1 = k0_pay4 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1024x1) origin2]
  simp only [View.readAt_eq_ld, harg2.read_unread, harg3.read_unread, harg4.read_unread, harg5.read_unread, harg7.read_unread, harg8.read_unread,
    View.ld_unit_zero (S := S1024x2048) origin2, View.ld_unit_zero (S := S1024x1) origin2, View.ld_unit_zero (S := S1024x128) origin2,
    View.ld_unit_zero (S := S128x128) origin2, View.ld_unit_zero (S := S1x128) origin2,
    View.readCov_unit_zero (S := S1024x1) _ origin2, View.readCov_unit_zero (S := S1024x128) _ origin2]
  first | rfl | skip

/-- A middle column block, feature sum. -/
theorem piece_B_1 (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : ¬cond0_1 i) (x0 : Vec F S1024x2048 .f32) (x1 : Vec F S16384x128 .bf16) (x2 : Vec F S128x128 .bf16) (x3 : Vec F S1x128 .f32) (xs0 : Vec F S1024x1 .f32) (xs1 : Vec F S1024x128 .f32) :
    sout0_B_1 c i arg2 harg2 arg3 harg3 arg4 harg4 arg5 harg5 arg6 harg6 arg7 harg7 arg8 harg8 hc0 hc1 x0 x1 x2 x3 xs0 xs1 = k0_pay5 x0 (featRows i x1) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1024x128) origin2]
  simp only [View.readAt_eq_ld, harg2.read_unread, harg3.read_unread, harg4.read_unread, harg5.read_unread, harg7.read_unread, harg8.read_unread,
    View.ld_unit_zero (S := S1024x2048) origin2, View.ld_unit_zero (S := S1024x1) origin2, View.ld_unit_zero (S := S1024x128) origin2,
    View.ld_unit_zero (S := S128x128) origin2, View.ld_unit_zero (S := S1x128) origin2,
    View.readCov_unit_zero (S := S1024x1) _ origin2, View.readCov_unit_zero (S := S1024x128) _ origin2]
  first | rfl | skip

/-- The last column block, normaliser. -/
theorem piece_C_0 (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i) (x0 : Vec F S1024x2048 .f32) (x1 : Vec F S16384x128 .bf16) (x2 : Vec F S128x128 .bf16) (x3 : Vec F S1x128 .f32) (xs0 : Vec F S1024x1 .f32) (xs1 : Vec F S1024x128 .f32) :
    sout0_C_0 c i arg2 harg2 arg3 harg3 arg4 harg4 arg5 harg5 arg6 harg6 arg7 harg7 arg8 harg8 hc0 hc1 x0 x1 x2 x3 xs0 xs1 = k0_pay4 x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S1024x1) origin2]
  simp only [View.readAt_eq_ld, harg2.read_unread, harg3.read_unread, harg4.read_unread, harg5.read_unread, harg7.read_unread, harg8.read_unread,
    View.ld_unit_zero (S := S1024x2048) origin2, View.ld_unit_zero (S := S1024x1) origin2, View.ld_unit_zero (S := S1024x128) origin2,
    View.ld_unit_zero (S := S128x128) origin2, View.ld_unit_zero (S := S1x128) origin2,
    View.readCov_unit_zero (S := S1024x1) _ origin2, View.readCov_unit_zero (S := S1024x128) _ origin2]
  first | rfl | skip

/-- The last column block, feature sum. -/
theorem piece_C_1 (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i) (x0 : Vec F S1024x2048 .f32) (x1 : Vec F S16384x128 .bf16) (x2 : Vec F S128x128 .bf16) (x3 : Vec F S1x128 .f32) (xs0 : Vec F S1024x1 .f32) (xs1 : Vec F S1024x128 .f32) :
    sout0_C_1 c i arg2 harg2 arg3 harg3 arg4 harg4 arg5 harg5 arg6 harg6 arg7 harg7 arg8 harg8 hc0 hc1 x0 x1 x2 x3 xs0 xs1 = k0_pay5 x0 (featRows i x1) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S1024x128) origin2]
  simp only [View.readAt_eq_ld, harg2.read_unread, harg3.read_unread, harg4.read_unread, harg5.read_unread, harg7.read_unread, harg8.read_unread,
    View.ld_unit_zero (S := S1024x2048) origin2, View.ld_unit_zero (S := S1024x1) origin2, View.ld_unit_zero (S := S1024x128) origin2,
    View.ld_unit_zero (S := S128x128) origin2, View.ld_unit_zero (S := S1x128) origin2,
    View.readCov_unit_zero (S := S1024x1) _ origin2, View.readCov_unit_zero (S := S1024x128) _ origin2]
  first | rfl | skip

/-- The last column block, the output block: the affine layer of the quotient of the two accumulators just updated. -/
theorem piece_C_4 (c : Dev nD) (i : grid0.Coords) (arg2 : Memref sig .tc .vmem S1024x2048 .f32) (harg2 : arg2.IsWhole) (arg3 : Memref sig .tc .vmem S16384x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (hc0 : ¬cond0_0 i) (hc1 : cond0_1 i) (x0 : Vec F S1024x2048 .f32) (x1 : Vec F S16384x128 .bf16) (x2 : Vec F S128x128 .bf16) (x3 : Vec F S1x128 .f32) (xs0 : Vec F S1024x1 .f32) (xs1 : Vec F S1024x128 .f32) :
    out0_C_4 c i arg2 harg2 arg3 harg3 arg4 harg4 arg5 harg5 arg6 harg6 arg7 harg7 arg8 harg8 hc0 hc1 x0 x1 x2 x3 xs0 xs1 = k0_pay6 (k0_pay5 x0 (featRows i x1) xs1) (k0_pay4 x0 xs0) x2 x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S1024x128) origin2]
  simp only [View.readAt_eq_ld, harg2.read_unread, harg3.read_unread, harg4.read_unread, harg5.read_unread, harg7.read_unread, harg8.read_unread,
    View.ld_unit_zero (S := S1024x2048) origin2, View.ld_unit_zero (S := S1024x1) origin2, View.ld_unit_zero (S := S1024x128) origin2,
    View.ld_unit_zero (S := S128x128) origin2, View.ld_unit_zero (S := S1x128) origin2,
    View.readCov_unit_zero (S := S1024x1) _ origin2, View.readCov_unit_zero (S := S1024x128) _ origin2]
  first | rfl | skip

end Cert.KernelAgg

end
-- ==== Proof.Blocks.lean ====
/-
  What the body loads at a grid point, in terms of the argument arrays.

  Point `t` of the 16 × 8 grid is row block `t / 8` and column block `t % 8`.  Its adjacency block is rows
  `1024·(t/8) …` and columns `2048·(t%8) …` of the adjacency; the feature rows it multiplies are rows
  `2048·(t%8) …` of the features (the change of float format before the call is the identity over the extended
  reals); the weight matrix and the bias row are the whole arguments (the bias as a one-row matrix).
-/
import proofs.«422669_j68161130988271_3_alg».proof.Proof.Pieces
import Idealize.ShloMosaic.Lib.ValueIdx
import Idealize.ShloMosaic.Lib.ValueLayout
import Idealize.ShloMosaic.Lib.StableHlo.Run

noncomputable section

namespace Cert.KernelAgg

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The blocks the body loads at point `t`, by their literal shapes. -/
abbrev adjBlk (c : Dev nD) (t : Fin cfg0.N) : S1024x2048.Idx → EReal := iblk m c 0 t
abbrev featArr (c : Dev nD) (t : Fin cfg0.N) : S16384x128.Idx → EReal := iblk m c 1 t
abbrev wArr (c : Dev nD) (t : Fin cfg0.N) : S128x128.Idx → EReal := iblk m c 2 t
abbrev bRow (c : Dev nD) (t : Fin cfg0.N) : S1x128.Idx → EReal := iblk m c 3 t

/-- The argument arrays. -/
abbrev argX (c : Dev nD) : S16384x128.Idx → EReal := m ((c : Thread nD τ).loc main_arg0)
abbrev argA (c : Dev nD) : S16384x16384.Idx → EReal := m ((c : Thread nD τ).loc main_arg1)
abbrev argW (c : Dev nD) : S128x128.Idx → EReal := m ((c : Thread nD τ).loc main_arg2)
abbrev argB (c : Dev nD) : S128.Idx → EReal := m ((c : Thread nD τ).loc main_arg3)

/-! ## The block indices over the grid -/

theorem idx_adj : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx_feat : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_w : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_b : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_out : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
/-- The point's column block is its second grid coordinate. -/
theorem coord_col : ∀ t : Fin cfg0.N, (grid0.coords t (1 : Fin 2)).val = t.val % 8 :=
  (by decide +kernel : ∀ t : Fin grid0.N, (grid0.coords t (1 : Fin 2)).val = t.val % 8)

/-! ## The arrays the region finds -/

theorem V_feat (c : Dev nD) : (V m c main_v0 : S16384x128.Idx → EReal) = argX m c := by
  have e : (V m c main_v0 : S16384x128.Idx → EReal) = truncf (F := Ideal) .bf16 (argX m c) bitsLt_bf16_f32 := by
    dsimp only [V, hostOps0]; after_results
  rw [e]; rfl

theorem V_w (c : Dev nD) : (V m c main_v1 : S128x128.Idx → EReal) = argW m c := by
  have e : (V m c main_v1 : S128x128.Idx → EReal) = truncf (F := Ideal) .bf16 (argW m c) bitsLt_bf16_f32 := by
    dsimp only [V, hostOps0]; after_results
  rw [e]; rfl

theorem V_b (c : Dev nD) : (V m c main_v2 : S1x128.Idx → EReal) = shapeCast S1x128 (argB m c) shapeCasts_S128_S1x128 := by
  dsimp only [V, hostOps0]; after_results; rfl

/-! ## The blocks at an entry -/

theorem adjBlk_apply (c : Dev nD) (t : Fin cfg0.N) (p : Fin 1024) (k : Fin 2048) (R K : Fin 16384)
    (hR : R.val = 1024 * (t.val / 8) + p.val) (hK : K.val = 2048 * (t.val % 8) + k.val) :
    adjBlk m c t (ix2 p k) = argA m c (ix2 R K) := by
  have hi := idx_adj t
  show iblk m c 0 t (ix2 p k) = _
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t 0 * 1024 + 1 * p.val = R.val; rw [hi.1, hR]; omega
  | ⟨1, _⟩ => show win0_0.index t 1 * 2048 + 1 * k.val = K.val; rw [hi.2, hK]; omega

theorem featArr_eq (c : Dev nD) (t : Fin cfg0.N) : featArr m c t = argX m c := by
  have hi := idx_feat t
  funext y
  show iblk m c 1 t y = _
  unfold iblk
  rw [View.read_apply]
  show V m c main_v0 _ = _
  rw [V_feat]
  refine congrArg (argX m c) (funext fun a => Fin.ext ?_)
  match a with
  | ⟨0, _⟩ => show win0_1.index t 0 * 16384 + 1 * (y 0).val = (y 0).val; rw [hi.1]; omega
  | ⟨1, _⟩ => show win0_1.index t 1 * 128 + 1 * (y 1).val = (y 1).val; rw [hi.2]; omega

theorem wArr_eq (c : Dev nD) (t : Fin cfg0.N) : wArr m c t = argW m c := by
  have hi := idx_w t
  funext y
  show iblk m c 2 t y = _
  unfold iblk
  rw [View.read_apply]
  show V m c main_v1 _ = _
  rw [V_w]
  refine congrArg (argW m c) (funext fun a => Fin.ext ?_)
  match a with
  | ⟨0, _⟩ => show win0_2.index t 0 * 128 + 1 * (y 0).val = (y 0).val; rw [hi.1]; omega
  | ⟨1, _⟩ => show win0_2.index t 1 * 128 + 1 * (y 1).val = (y 1).val; rw [hi.2]; omega

theorem bRow_apply (c : Dev nD) (t : Fin cfg0.N) (z : Fin 1) (d : Fin 128) : bRow m c t (ix2 z d) = argB m c (ix1 d) := by
  have hi := idx_b t
  show iblk m c 3 t (ix2 z d) = _
  unfold iblk
  rw [View.read_apply]
  show V m c main_v2 _ = _
  rw [V_b]
  refine (shapeCast_apply (argB m c) shapeCasts_S128_S1x128 _ (ix1 d) ?_)
  rw [Shape.rowMajor_val_one, Shape.rowMajor_val_two]
  show d.val = (win0_3.index t 0 * 1 + 1 * z.val) * 128 + (win0_3.index t 1 * 128 + 1 * d.val)
  rw [hi.1, hi.2]; omega

/-- The feature rows of the point's column block, at an entry. -/
theorem featRows_apply (c : Dev nD) (t : Fin cfg0.N) (k : Fin 2048) (d : Fin 128) (K : Fin 16384)
    (hK : K.val = 2048 * (t.val % 8) + k.val) :
    featRows (F := Ideal) (grid0.coords t) (featArr m c t) (ix2 k d) = argX m c (ix2 K d) := by
  rw [featArr_eq]
  unfold featRows
  show argX m c ((Rect.unit (s := S16384x128) (k0_off1 (grid0.coords t)) S2048x128.size (k0_off1_inb (grid0.coords t))).emb (ix2 k d)) = _
  refine congrArg (argX m c) (funext fun a => Fin.ext ?_)
  have ho := k0_off1_eq (grid0.coords t)
  have hc := coord_col t
  match a with
  | ⟨0, _⟩ => show k0_off1 (grid0.coords t) 0 + 1 * k.val = K.val; rw [ho, hK]; show 2048 * (grid0.coords t 1).val + 1 * k.val = _; rw [hc]; omega
  | ⟨1, _⟩ => show k0_off1 (grid0.coords t) 1 + 1 * d.val = d.val; rw [ho]; show 0 + 1 * d.val = _; omega

end Cert.KernelAgg

end
-- ==== Proof.Payloads.lean ====
/-
  The body's arithmetic read at one entry, over the extended reals.

  For a row `p` of the point's 1024-row block: the normaliser's update adds the row's 2048 weights
  `exp s(p,k)`; the feature sum's update adds `∑_k exp s(p,k) · x(k,d)` (a block product into a zero
  accumulator is just that sum, and a change of float format is the identity); the output entry is
  `∑_e (acc(p,e) / l(p)) · w(e,d) + b(d)`.  The two zero stores read `0`.
-/
import proofs.«422669_j68161130988271_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelAgg

open Cert.KernelIdeal Cert.KernelIdeal.Gen Idealize.ShloMosaic Idealize.ShloMosaic.ValueIdx

/-! ## Layout operations of the column forms, at an entry -/

/-- A vector of 1024 entries viewed as a column: entry `(p, 0)` is entry `p`. -/
theorem column_apply (v : S1024.Idx → EReal) (h : S1024.ShapeCasts S1024x1) (p : Fin 1024) (z : Fin 1) :
    shapeCast S1024x1 v h (ix2 p z) = v (ix1 p) := by
  refine shapeCast_apply v h (ix2 p z) (ix1 p) ?_
  rw [Shape.rowMajor_val_one, Shape.rowMajor_val_two]
  show p.val = p.val * 1 + z.val
  omega

/-- A column spread over 128 lanes: entry `(p, e)` is the column's entry `(p, 0)`. -/
theorem spread_column_apply (v : S1024x1.Idx → EReal) (h : S1024x1.Broadcasts S1024x128) (p : Fin 1024) (e : Fin 128) :
    broadcastTo S1024x128 v h (ix2 p e) = v (ix2 p 0) := by
  refine broadcastTo_apply v h (ix2 p e) (ix2 p 0) ?_
  intro a
  match a with
  | ⟨0, _⟩ => show p.val = if (1024 : Nat) = 1 then 0 else p.val; rw [if_neg (by decide)]
  | ⟨1, _⟩ => show (0 : Nat) = if (1 : Nat) = 1 then 0 else e.val; rw [if_pos rfl]

/-- A row spread over 1024 rows: entry `(p, d)` is the row's entry `(0, d)`. -/
theorem spread_row_apply (v : S1x128.Idx → EReal) (h : S1x128.Broadcasts S1024x128) (p : Fin 1024) (d : Fin 128) :
    broadcastTo S1024x128 v h (ix2 p d) = v (ix2 0 d) := by
  refine broadcastTo_apply v h (ix2 p d) (ix2 0 d) ?_
  intro a
  match a with
  | ⟨0, _⟩ => show (0 : Nat) = if (1 : Nat) = 1 then 0 else p.val; rw [if_pos rfl]
  | ⟨1, _⟩ => show d.val = if (128 : Nat) = 1 then 0 else d.val; rw [if_neg (by decide)]

/-! ## The two block products at an entry -/

theorem lhs_wx_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_wx_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_wx_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_wx_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product at an entry: the sum over the 2048 contracted positions of the row of the left factor against the
    column of the right factor. -/
theorem matmul_wx_apply (l : S1024x2048.Idx → EReal) (r : S2048x128.Idx → EReal) (p : Fin 1024) (d : Fin 128) :
    FloatOps.matmul (F := Ideal) (φ₁ := .bf16) (φ₂ := .bf16) dot_S1024x2048_S2048x128_S1024x128_1_0_0_1_n_n none l r (constant S1024x128 .f32 0x00000000#32) (ix2 p d)
      = ∑ k : Fin 2048, l (ix2 p k) * r (ix2 k d) := by
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 p d) ((ValueIdx.contrEquiv1 dot_S1024x2048_S2048x128_S1024x128_1_0_0_1_n_n 2048 rfl rfl).symm k) = ix2 p k := funext fun a => Fin.ext (by
    match a with
    | ⟨0, _⟩ => exact lhs_wx_0 _ _
    | ⟨1, _⟩ => exact (lhs_wx_1 _ _).trans hk)
  have er : dot_S1024x2048_S2048x128_S1024x128_1_0_0_1_n_n.rhsIdx (ix2 p d) ((ValueIdx.contrEquiv1 dot_S1024x2048_S2048x128_S1024x128_1_0_0_1_n_n 2048 rfl rfl).symm k) = ix2 k d := funext fun a => Fin.ext (by
    match a with
    | ⟨0, _⟩ => exact (rhs_wx_0 _ _).trans hk
    | ⟨1, _⟩ => exact rhs_wx_1 _ _)
  rw [el, er]

theorem lhs_hw_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_hw_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_hw_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_hw_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The block product at an entry: the sum over the 128 contracted positions of the row of the left factor against the
    column of the right factor. -/
theorem matmul_hw_apply (l : S1024x128.Idx → EReal) (r : S128x128.Idx → EReal) (p : Fin 1024) (d : Fin 128) :
    FloatOps.matmul (F := Ideal) (φ₁ := .bf16) (φ₂ := .bf16) dot_S1024x128_S128x128_S1024x128_1_0_0_1_n_n none l r (constant S1024x128 .f32 0x00000000#32) (ix2 p d)
      = ∑ k : Fin 128, l (ix2 p k) * r (ix2 k d) := by
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p d) ((ValueIdx.contrEquiv1 dot_S1024x128_S128x128_S1024x128_1_0_0_1_n_n 128 rfl rfl).symm k) = ix2 p k := funext fun a => Fin.ext (by
    match a with
    | ⟨0, _⟩ => exact lhs_hw_0 _ _
    | ⟨1, _⟩ => exact (lhs_hw_1 _ _).trans hk)
  have er : dot_S1024x128_S128x128_S1024x128_1_0_0_1_n_n.rhsIdx (ix2 p d) ((ValueIdx.contrEquiv1 dot_S1024x128_S128x128_S1024x128_1_0_0_1_n_n 128 rfl rfl).symm k) = ix2 k d := funext fun a => Fin.ext (by
    match a with
    | ⟨0, _⟩ => exact (rhs_hw_0 _ _).trans hk
    | ⟨1, _⟩ => exact rhs_hw_1 _ _)
  rw [el, er]

/-! ## The stores' values at an entry -/

/-- The zero column. -/
theorem zero_column_apply (y : S1024x1.Idx) : k0_pay1 (F := Ideal) y = 0 := by
  unfold k0_pay1
  simp only [shapeCast_self]
  exact Ideal.ofBits_zero_f32

/-- The zero block. -/
theorem zero_block_apply (y : S1024x128.Idx) : k0_pay2 (F := Ideal) y = 0 := by
  unfold k0_pay2
  simp only [shapeCast_self]
  exact Ideal.ofBits_zero_f32

/-- A row's sum of weights over the point's 2048 columns. -/
theorem rowsum_apply (v3 : S1024x2048.Idx → EReal) (hφ : FKind.Formats .f32) (hacc : (0x00000000#32 : BitVec 32) = 0x00000000#32) (p : Fin 1024) :
    multiReduction (F := Ideal) (φ := .f32) .add [1] S1024 (exp (F := Ideal) (φ := .f32) v3) 0x00000000#32 reduces_S1024x2048_S1024 hφ hacc (ix1 p)
      = ∑ k : Fin 2048, Ideal.exp (v3 (ix2 p k)) := by
  refine (Ideal.multiReduction_add_single (exp (F := Ideal) (φ := .f32) v3) 0x00000000#32 reduces_S1024x2048_S1024 hφ hacc (ix1 p)).trans ?_
  refine Finset.sum_congr rfl fun k _ => ?_
  show Ideal.exp (v3 _) = _
  refine congrArg (fun j => Ideal.exp (v3 j)) (funext fun a => Fin.ext ?_)
  match a with
  | ⟨0, _⟩ => rfl
  | ⟨1, _⟩ => rfl

/-- The normaliser's update at row `p`: what was there plus the row's 2048 weights. -/
theorem normaliser_update_apply (v3 : S1024x2048.Idx → EReal) (v7 : S1024x1.Idx → EReal) (p : Fin 1024) (z : Fin 1) :
    k0_pay4 (F := Ideal) v3 v7 (ix2 p z) = v7 (ix2 p z) + ∑ k : Fin 2048, Ideal.exp (v3 (ix2 p k)) := by
  unfold k0_pay4 k0_pay3
  simp only [shapeCast_self]
  show v7 (ix2 p z) + shapeCast S1024x1 _ _ (ix2 p z) = _
  rw [column_apply]
  exact congrArg (v7 (ix2 p z) + ·) (rowsum_apply v3 _ _ p)

/-- The feature sum's update at `(p, d)`: what was there plus the row's weights against column `d` of the 2048
    feature rows. -/
theorem feature_update_apply (v3 : S1024x2048.Idx → EReal) (v16 : S2048x128.Idx → EReal) (v19 : S1024x128.Idx → EReal)
    (p : Fin 1024) (d : Fin 128) :
    k0_pay5 (F := Ideal) v3 v16 v19 (ix2 p d) = v19 (ix2 p d) + ∑ k : Fin 2048, Ideal.exp (v3 (ix2 p k)) * v16 (ix2 k d) := by
  unfold k0_pay5 k0_pay3
  simp only [shapeCast_self]
  show v19 (ix2 p d) + FloatOps.matmul (F := Ideal) _ none _ _ _ (ix2 p d) = _
  exact congrArg (v19 (ix2 p d) + ·) (matmul_wx_apply _ _ p d)

/-- The output entry `(p, d)`: the quotients `acc(p,e) / l(p)` against column `d` of the weights, plus the bias. -/
theorem output_apply (v27 : S1024x128.Idx → EReal) (v28 : S1024x1.Idx → EReal) (v32 : S128x128.Idx → EReal) (v35 : S1x128.Idx → EReal)
    (p : Fin 1024) (d : Fin 128) :
    k0_pay6 (F := Ideal) v27 v28 v32 v35 (ix2 p d)
      = (∑ e : Fin 128, Ideal.div (v27 (ix2 p e)) (v28 (ix2 p 0)) * v32 (ix2 e d)) + v35 (ix2 0 d) := by
  unfold k0_pay6
  simp only [shapeCast_self]
  show FloatOps.matmul (F := Ideal) _ none _ _ _ (ix2 p d) + broadcastTo S1024x128 v35 _ (ix2 p d) = _
  rw [spread_row_apply, matmul_hw_apply]
  refine congrArg (· + v35 (ix2 0 d)) (Finset.sum_congr rfl fun e _ => ?_)
  show Ideal.div (v27 (ix2 p e)) (broadcastTo S1024x128 v28 _ (ix2 p e)) * _ = _
  rw [spread_column_apply]

end Cert.KernelAgg

end
-- ==== Proof.SoftAgg.lean ====
/-
  The mathematics of the certificate, stated over plain index functions (no program is imported here).

  A row `R` of the adjacency `a` is turned into weights `exp a(R,K)`; the aggregated feature is the weighted
  mean `h(R,e) = (∑_K exp a(R,K) · x(K,e)) / (∑_K exp a(R,K))`, and the result is the affine layer
  `out(R,d) = ∑_e h(R,e) · w(e,d) + b(d)`.  The sums over the 16384 columns are written as they are
  accumulated: eight column blocks of 2048, block after block (`blocked`), so that the partial sums after
  `n` blocks have a name (`blocked f n`) and one more block adds one more inner sum (`blocked_succ`).
-/
import Idealize.ShloMosaic.PureOps.Ideal.Laws
import Idealize.ShloMosaic.Lib.ValueIdx

noncomputable section

open scoped BigOperators

namespace Cert.SoftAgg

open Idealize.ShloMosaic Idealize.ShloMosaic.ValueIdx

/-- The adjacency's shape, the features' (and the result's), the weight matrix's, the bias's. -/
abbrev SNN : Shape := ⟨2, ![16384, 16384]⟩
abbrev SND : Shape := ⟨2, ![16384, 128]⟩
abbrev SDD : Shape := ⟨2, ![128, 128]⟩
abbrev SD : Shape := ⟨1, ![128]⟩

/-- The weight `exp a(R,K)` of column `K` in row `R`; the column is a natural number (zero weight past the last
    column, which no sum below reaches). -/
def expAt (a : SNN.Idx → EReal) (R : Fin 16384) (K : ℕ) : EReal :=
  if h : K < 16384 then Ideal.exp (a (ix2 R ⟨K, h⟩)) else 0

/-- The feature `x(K,e)` with the row a natural number (zero past the last row). -/
def featAt (x : SND.Idx → EReal) (K : ℕ) (e : Fin 128) : EReal :=
  if h : K < 16384 then x (ix2 ⟨K, h⟩ e) else 0

/-- The sum of `f` over the first `n` column blocks of 2048 columns each, block after block. -/
def blocked (f : ℕ → EReal) (n : ℕ) : EReal :=
  ∑ j ∈ Finset.range n, ∑ k : Fin 2048, f (2048 * j + k.val)

theorem blocked_zero (f : ℕ → EReal) : blocked f 0 = 0 := by
  unfold blocked; rw [Finset.sum_range_zero]

/-- One more block adds that block's sum. -/
theorem blocked_succ (f : ℕ → EReal) (n : ℕ) :
    blocked f (n + 1) = blocked f n + ∑ k : Fin 2048, f (2048 * n + k.val) := by
  unfold blocked; rw [Finset.sum_range_succ]

/-- The normaliser of row `R`: the sum of its weights. -/
def rowSum (a : SNN.Idx → EReal) (R : Fin 16384) : EReal := blocked (expAt a R) 8

/-- The weighted sum of feature `e` over row `R`. -/
def rowAcc (a : SNN.Idx → EReal) (x : SND.Idx → EReal) (R : Fin 16384) (e : Fin 128) : EReal :=
  blocked (fun K => expAt a R K * featAt x K e) 8

/-- The result array: the weighted mean of the features, through the affine layer. -/
def result (x : SND.Idx → EReal) (a : SNN.Idx → EReal) (w : SDD.Idx → EReal) (b : SD.Idx → EReal) : SND.Idx → EReal :=
  fun i => (∑ e : Fin 128, Ideal.div (rowAcc a x (i 0) e) (rowSum a (i 0)) * w (ix2 e (i 1))) + b (ix1 (i 1))

end Cert.SoftAgg

end
-- ==== Proof.Accumulate.lean ====
/-
  The two accumulators after every grid point.

  Within row block `t / 8` the points run through the column blocks `0 … 7`.  After the point of column block `j`
  the normaliser holds, for each of the block's 1024 rows, the sum of the row's weights over the first `j + 1`
  column blocks, and the feature accumulator holds the weights' sum against the features over the same columns:
  by induction on the point — the first column block starts from the zero store, every other one from what the
  point before left, and one more column block adds one more inner sum (`blocked_succ`).
-/
import proofs.«422669_j68161130988271_3_alg».proof.Proof.Blocks
import proofs.«422669_j68161130988271_3_alg».proof.Proof.Payloads
import proofs.«422669_j68161130988271_3_alg».proof.Proof.SoftAgg

noncomputable section

open scoped BigOperators

namespace Cert.KernelAgg

open Cert.KernelIdeal Cert.KernelIdeal.Gen Idealize.ShloMosaic Idealize.ShloMosaic.TcCoe Idealize.ShloMosaic.ValueIdx Idealize.SL.Sem
open Cert.SoftAgg

variable (m : (ℓ : Loc nD τ sig) → Buf (Elt Ideal) ℓ)

theorem points_lt (t : Fin cfg0.N) : t.val < 128 := lt_of_lt_of_eq t.isLt (show cfg0.N = 128 from N_0)

/-- The adjacency row that row `p` of point `t`'s row block is. -/
def rowOf (t : Fin cfg0.N) (p : Fin 1024) : Fin 16384 :=
  ⟨1024 * (t.val / 8) + p.val, by have := points_lt t; have := p.isLt; omega⟩

/-- A loaded adjacency entry's weight is the specification's weight of its row and column. -/
theorem weight_eq (c : Dev nD) (t : Fin cfg0.N) (p : Fin 1024) (k : Fin 2048) :
    Ideal.exp (adjBlk m c t (ix2 p k)) = expAt (argA m c) (rowOf t p) (2048 * (t.val % 8) + k.val) := by
  have hk : 2048 * (t.val % 8) + k.val < 16384 := by have := k.isLt; omega
  unfold expAt
  rw [dif_pos hk, adjBlk_apply m c t p k (rowOf t p) ⟨2048 * (t.val % 8) + k.val, hk⟩ rfl rfl]

/-- A loaded feature entry is the specification's feature of its row. -/
theorem feat_eq (c : Dev nD) (t : Fin cfg0.N) (k : Fin 2048) (d : Fin 128) :
    featRows (F := Ideal) (grid0.coords t) (featArr m c t) (ix2 k d) = featAt (argX m c) (2048 * (t.val % 8) + k.val) d := by
  have hk : 2048 * (t.val % 8) + k.val < 16384 := by have := k.isLt; omega
  unfold featAt
  rw [dif_pos hk, featRows_apply m c t k d ⟨2048 * (t.val % 8) + k.val, hk⟩ rfl]

/-- One column block more in the normaliser. -/
theorem normaliser_step (c : Dev nD) (t : Fin cfg0.N) (xs0 : S1024x1.Idx → EReal) (p : Fin 1024) (z : Fin 1) (j : ℕ)
    (hj : t.val % 8 = j) (hx : xs0 (ix2 p z) = blocked (expAt (argA m c) (rowOf t p)) j) :
    k0_pay4 (F := Ideal) (adjBlk m c t) xs0 (ix2 p z) = blocked (expAt (argA m c) (rowOf t p)) (j + 1) := by
  rw [normaliser_update_apply, hx, blocked_succ]
  refine congrArg (blocked (expAt (argA m c) (rowOf t p)) j + ·) (Finset.sum_congr rfl fun k _ => ?_)
  rw [weight_eq, hj]

/-- One column block more in the feature accumulator. -/
theorem feature_step (c : Dev nD) (t : Fin cfg0.N) (xs1 : S1024x128.Idx → EReal) (p : Fin 1024) (d : Fin 128) (j : ℕ)
    (hj : t.val % 8 = j)
    (hx : xs1 (ix2 p d) = blocked (fun K => expAt (argA m c) (rowOf t p) K * featAt (argX m c) K d) j) :
    k0_pay5 (F := Ideal) (adjBlk m c t) (featRows (F := Ideal) (grid0.coords t) (featArr m c t)) xs1 (ix2 p d)
      = blocked (fun K => expAt (argA m c) (rowOf t p) K * featAt (argX m c) K d) (j + 1) := by
  rw [feature_update_apply, hx, blocked_succ]
  refine congrArg (blocked (fun K => expAt (argA m c) (rowOf t p) K * featAt (argX m c) K d) j + ·) (Finset.sum_congr rfl fun k _ => ?_)
  rw [weight_eq, feat_eq, hj]

/-- What the two accumulators hold after point `t`. -/
def Holds (c : Dev nD) (t : Fin cfg0.N) : Prop :=
  (∀ (p : Fin 1024) (z : Fin 1), (outsAt0 m c t.val t.isLt).2.1 (ix2 p z) = blocked (expAt (argA m c) (rowOf t p)) (t.val % 8 + 1))
  ∧ (∀ (p : Fin 1024) (d : Fin 128), (outsAt0 m c t.val t.isLt).2.2 (ix2 p d)
      = blocked (fun K => expAt (argA m c) (rowOf t p) K * featAt (argX m c) K d) (t.val % 8 + 1))

/-- The point before, inside a row block, works on the same rows. -/
theorem rowOf_pred (t t' : Fin cfg0.N) (h : t'.val = t.val - 1) (h0 : ¬t.val % 8 = 0) (p : Fin 1024) : rowOf t' p = rowOf t p := by
  apply Fin.ext
  show 1024 * (t'.val / 8) + p.val = 1024 * (t.val / 8) + p.val
  rw [h]; omega

theorem holds_all (c : Dev nD) : ∀ (n : ℕ) (t : Fin cfg0.N), t.val = n → Holds m c t := by
  intro n
  induction n with
  | zero =>
    intro t ht
    have h0 : t.val % 8 = 0 := by rw [ht]
    have h1 : ¬t.val % 8 = 7 := by rw [ht]; decide
    refine ⟨fun p z => ?_, fun p d => ?_⟩
    · rw [outsAt0_A m c t h0 h1]
      dsimp only
      refine (congrFun (piece_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 p z)).trans ?_
      rw [h0]
      exact normaliser_step m c t _ p z 0 h0 (by rw [zero_column_apply, blocked_zero])
    · rw [outsAt0_A m c t h0 h1]
      dsimp only
      refine (congrFun (piece_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 p d)).trans ?_
      rw [h0]
      exact feature_step m c t _ p d 0 h0 (by rw [zero_block_apply, blocked_zero])
  | succ n ih =>
    intro t ht
    have hN := points_lt t
    by_cases h0 : t.val % 8 = 0
    · have h1 : ¬t.val % 8 = 7 := by omega
      refine ⟨fun p z => ?_, fun p d => ?_⟩
      · rw [outsAt0_A m c t h0 h1]
        dsimp only
        refine (congrFun (piece_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 p z)).trans ?_
        rw [h0]
        exact normaliser_step m c t _ p z 0 h0 (by rw [zero_column_apply, blocked_zero])
      · rw [outsAt0_A m c t h0 h1]
        dsimp only
        refine (congrFun (piece_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 p d)).trans ?_
        rw [h0]
        exact feature_step m c t _ p d 0 h0 (by rw [zero_block_apply, blocked_zero])
    · -- the point before is in the same row block
      have hlt : t.val - 1 < cfg0.N := Nat.lt_of_le_of_lt (Nat.sub_le _ _) t.isLt
      obtain ⟨hp0, hp1⟩ := ih ⟨t.val - 1, hlt⟩ (by show t.val - 1 = n; omega)
      have hj : (t.val - 1) % 8 + 1 = t.val % 8 := by omega
      by_cases h1 : t.val % 8 = 7
      · refine ⟨fun p z => ?_, fun p d => ?_⟩
        · rw [outsAt0_C m c t h0 h1]
          dsimp only
          refine (congrFun (piece_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) hlt).2.1 (outsAt0 m c (t.val - 1) hlt).2.2) (ix2 p z)).trans ?_
          refine normaliser_step m c t _ p z (t.val % 8) rfl ?_
          have e := hp0 p z
          rw [rowOf_pred t ⟨t.val - 1, hlt⟩ rfl h0 p] at e
          rw [← hj]; exact e
        · rw [outsAt0_C m c t h0 h1]
          dsimp only
          refine (congrFun (piece_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) hlt).2.1 (outsAt0 m c (t.val - 1) hlt).2.2) (ix2 p d)).trans ?_
          refine feature_step m c t _ p d (t.val % 8) rfl ?_
          have e := hp1 p d
          rw [rowOf_pred t ⟨t.val - 1, hlt⟩ rfl h0 p] at e
          rw [← hj]; exact e
      · refine ⟨fun p z => ?_, fun p d => ?_⟩
        · rw [outsAt0_B m c t h0 h1]
          dsimp only
          refine (congrFun (piece_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) hlt).2.1 (outsAt0 m c (t.val - 1) hlt).2.2) (ix2 p z)).trans ?_
          refine normaliser_step m c t _ p z (t.val % 8) rfl ?_
          have e := hp0 p z
          rw [rowOf_pred t ⟨t.val - 1, hlt⟩ rfl h0 p] at e
          rw [← hj]; exact e
        · rw [outsAt0_B m c t h0 h1]
          dsimp only
          refine (congrFun (piece_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) hlt).2.1 (outsAt0 m c (t.val - 1) hlt).2.2) (ix2 p d)).trans ?_
          refine feature_step m c t _ p d (t.val % 8) rfl ?_
          have e := hp1 p d
          rw [rowOf_pred t ⟨t.val - 1, hlt⟩ rfl h0 p] at e
          rw [← hj]; exact e

/-- After every point the accumulators hold the partial sums of its row block. -/
theorem holds (c : Dev nD) (t : Fin cfg0.N) : Holds m c t := holds_all m c t.val t rfl

/-- At the last column block the normaliser just updated is the row's full sum of weights, -/
theorem last_normaliser (c : Dev nD) (t : Fin cfg0.N) (h0 : ¬t.val % 8 = 0) (h1 : t.val % 8 = 7) (hlt : t.val - 1 < cfg0.N)
    (p : Fin 1024) (z : Fin 1) :
    k0_pay4 (F := Ideal) (adjBlk m c t) (outsAt0 m c (t.val - 1) hlt).2.1 (ix2 p z) = rowSum (argA m c) (rowOf t p) := by
  refine normaliser_step m c t _ p z 7 h1 ?_
  have e := (holds m c ⟨t.val - 1, hlt⟩).1 p z
  rw [rowOf_pred t ⟨t.val - 1, hlt⟩ rfl h0 p] at e
  have hj : (t.val - 1) % 8 + 1 = 7 := by omega
  rw [← hj]; exact e

/-- and the feature accumulator just updated is the row's full weighted feature sum. -/
theorem last_feature (c : Dev nD) (t : Fin cfg0.N) (h0 : ¬t.val % 8 = 0) (h1 : t.val % 8 = 7) (hlt : t.val - 1 < cfg0.N)
    (p : Fin 1024) (d : Fin 128) :
    k0_pay5 (F := Ideal) (adjBlk m c t) (featRows (F := Ideal) (grid0.coords t) (featArr m c t)) (outsAt0 m c (t.val - 1) hlt).2.2 (ix2 p d)
      = rowAcc (argA m c) (argX m c) (rowOf t p) d := by
  refine feature_step m c t _ p d 7 h1 ?_
  have e := (holds m c ⟨t.val - 1, hlt⟩).2 p d
  rw [rowOf_pred t ⟨t.val - 1, hlt⟩ rfl h0 p] at e
  have hj : (t.val - 1) % 8 + 1 = 7 := by omega
  rw [← hj]; exact e

end Cert.KernelAgg

end
-- ==== Proof.KernelValue.lean ====
/-
  The kernel's result array.

  The output block of row block `t / 8` is written at the row block's last column block, from the two accumulators
  that by then hold the full row sums: entry `(p, d)` is `∑_e (acc(p,e) / l(p)) · w(e,d) + b(d)`, which is the
  specification's `result` at row `1024·(t/8) + p`.  The sixteen output blocks tile the array, so after the run the
  array is `result` of the arguments.
-/
import proofs.«422669_j68161130988271_3_alg».proof.Proof.Accumulate
import proofs.«422669_j68161130988271_3_alg».proof.Proof.Gen.KernelIdeal.Value

noncomputable section

open scoped BigOperators

namespace Cert.KernelAgg

open Cert.KernelIdeal Cert.KernelIdeal.Gen Idealize.ShloMosaic Idealize.ShloMosaic.TcCoe Idealize.ShloMosaic.ValueIdx Idealize.SL.Sem
open Idealize.ShloMosaic.Pipeline (Dat)
open Cert.SoftAgg

variable (m : (ℓ : Loc nD τ sig) → Buf (Elt Ideal) ℓ) (ρ : Dev nD → PrngReg)

/-- The specification's result of the argument arrays. -/
abbrev resultOf (c : Dev nD) : S16384x128.Idx → EReal := result (argX m c) (argA m c) (argW m c) (argB m c)

/-- The array index of entry `(p, d)` of point `t`'s output block. -/
theorem out_emb (t : Fin cfg0.N) (p : Fin 1024) (d : Fin 128) :
    ((cfg0.win 4).blk t).view.emb (ix2 p d) = ix2 (rowOf t p) d := by
  have hi := idx_out t
  funext a; apply Fin.ext
  match a with
  | ⟨0, _⟩ => show win0_4.index t (0 : Fin 2) * 1024 + 1 * p.val = 1024 * (t.val / 8) + p.val; rw [hi.1]; omega
  | ⟨1, _⟩ => show win0_4.index t (1 : Fin 2) * 128 + 1 * d.val = d.val; rw [hi.2]; omega

/-- What a row block's last point writes back is its block of the specification's result. -/
theorem flushed_eq (c : Dev nD) (t : Fin cfg0.N) (hf : (cfg0.win 4).flush t = true) :
    (dats m 0 c).flushed 4 t = ((cfg0.win 4).blk t).view.read (Elt Ideal) (resultOf m c) := by
  have h1 : t.val % 8 = 7 := (flush0_4 t).mp hf
  have h0 : ¬t.val % 8 = 0 := by omega
  have hlt : t.val - 1 < cfg0.N := Nat.lt_of_le_of_lt (Nat.sub_le _ _) t.isLt
  rw [Value.flushed4_C m c t h0 h1]
  funext j
  obtain ⟨p, d, rfl⟩ : ∃ (p : Fin 1024) (d : Fin 128), j = ix2 p d := ⟨j 0, j 1, eq_ix2 j⟩
  show out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) hlt).2.1 (outsAt0 m c (t.val - 1) hlt).2.2 (ix2 p d)
    = resultOf m c (((cfg0.win 4).blk t).view.emb (ix2 p d))
  refine (congrFun (piece_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) hlt).2.1 (outsAt0 m c (t.val - 1) hlt).2.2) (ix2 p d)).trans ?_
  rw [out_emb]
  refine (output_apply _ _ (wArr m c t) (bRow m c t) p d).trans ?_
  show _ = (∑ e : Fin 128, Ideal.div (rowAcc (argA m c) (argX m c) (rowOf t p) e) (rowSum (argA m c) (rowOf t p)) * argW m c (ix2 e d)) + argB m c (ix1 d)
  rw [bRow_apply, wArr_eq]
  refine congrArg (· + argB m c (ix1 d)) (Finset.sum_congr rfl fun e _ => ?_)
  rw [last_normaliser m c t h0 h1 hlt p 0, last_feature m c t h0 h1 hlt p e]

/-- Every row of the array lies in the output block of its row block's last point. -/
theorem cover (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  have hN : cfg0.N = 128 := N_0
  let t : Fin cfg0.N := ⟨8 * ((i 0).val / 1024) + 7, by rw [hN]; omega⟩
  have ht : t.val = 8 * ((i 0).val / 1024) + 7 := rfl
  have hi := idx_out t
  refine ⟨t, (flush0_4 t).mpr (by rw [ht]; omega), ?_⟩
  show i ∈ ((View.whole main_v3).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024
              rw [hi.1, ht]; omega
  | ⟨1, _⟩ => show win0_4.index t (1 : Fin 2) * 128 ≤ (i 1).val ∧ (i 1).val < win0_4.index t (1 : Fin 2) * 128 + 128
              rw [hi.2]; omega

/-- After the run the output array is the specification's result of the arguments. -/
theorem final (c : Dev nD) : (dats m 0 c).arrAt 4 cfg0.N = resultOf m c :=
  (dats m 0 c).arrAt_eq_of_cover 4 (resultOf m c) (flushed_eq m c) cover

/-- The kernel's run: it terminates with the result array at `result` of the arguments, which it leaves unchanged. -/
theorem run : θ_run defs (onTc (τ := τ) (main (F := Ideal))) ⟨m, fun _ => 0, ρ⟩ fun r => ∀ c : Dev nD,
      r.2.mem ((c : Thread nD τ).loc main_v3) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelAgg

end
-- ==== Proof.SoftAggLaws.lean ====
/-
  Laws of the weighted mean over the extended reals.

  * The eight column blocks of 2048 exhaust the 16384 columns, so a blocked sum is the plain sum over all
    columns (`blocked_eight`, and its two instances `rowSum_eq`, `rowAcc_eq`).
  * The softmax weights do not depend on the shift: for real scores `α`, real features `ξ` and ANY real shift `M`,
    `(∑ e^{α k} ξ k) / (∑ e^{α k}) = ∑ (e^{α k - M} / ∑ e^{α k' - M}) ξ k` (`softmax_mean`) — the factor
    `e^{-M}` cancels between numerator and denominator, and the division distributes over the finite sum because
    every term is a real number.
-/
import proofs.«422669_j68161130988271_3_alg».proof.Proof.SoftAgg
import Mathlib.Logic.Equiv.Fin.Basic
import Mathlib.Algebra.BigOperators.Fin
import Mathlib.Algebra.BigOperators.Field
import Mathlib.Analysis.SpecialFunctions.Exp
import Mathlib.Data.EReal.Basic

noncomputable section

open scoped BigOperators

namespace Cert.SoftAgg

open Idealize.ShloMosaic Idealize.ShloMosaic.ValueIdx

/-- A finite sum of real numbers, read in the extended reals, is the sum of the terms read there. -/
theorem coe_sum_real {ι : Type} (s : Finset ι) (g : ι → ℝ) :
    ∑ k ∈ s, ((g k : ℝ) : EReal) = ((∑ k ∈ s, g k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Eight blocks of 2048 columns are all 16384 columns. -/
theorem blocked_eight (f : ℕ → EReal) : blocked f 8 = ∑ K : Fin 16384, f K.val := by
  unfold blocked
  -- the outer sum over the first eight naturals is a sum over `Fin 8`
  rw [Finset.sum_range (fun j => ∑ k : Fin 2048, f (2048 * j + k.val))]
  -- the double sum is one sum over the pairs (block, column inside the block)
  rw [← Fintype.sum_prod_type' (fun (j : Fin 8) (k : Fin 2048) => f (2048 * j.val + k.val))]
  -- the pair (j, k) is column `k + 2048 * j`, and this is a bijection onto the `8 * 2048` columns
  show _ = ∑ K : Fin (8 * 2048), f K.val
  rw [← Equiv.sum_comp (finProdFinEquiv : Fin 8 × Fin 2048 ≃ Fin (8 * 2048)) (fun K => f K.val)]
  refine Finset.sum_congr rfl (fun p _ => ?_)
  show f (2048 * p.1.val + p.2.val) = f (p.2.val + 2048 * p.1.val)
  rw [Nat.add_comm]

/-- The normaliser of a row is the sum of its weights over all columns. -/
theorem rowSum_eq (a : SNN.Idx → EReal) (R : Fin 16384) :
    rowSum a R = ∑ K : Fin 16384, Ideal.exp (a (ix2 R K)) := by
  unfold rowSum
  rw [blocked_eight]
  refine Finset.sum_congr rfl (fun K _ => ?_)
  unfold expAt
  rw [dif_pos K.isLt]

/-- The weighted sum of a feature over a row, over all columns. -/
theorem rowAcc_eq (a : SNN.Idx → EReal) (x : SND.Idx → EReal) (R : Fin 16384) (e : Fin 128) :
    rowAcc a x R e = ∑ K : Fin 16384, Ideal.exp (a (ix2 R K)) * x (ix2 K e) := by
  unfold rowAcc
  rw [blocked_eight]
  refine Finset.sum_congr rfl (fun K _ => ?_)
  unfold expAt featAt
  rw [dif_pos K.isLt, dif_pos K.isLt]

/-- The weighted mean with weights `e^{α}` is the sum of the features against the shifted, normalised weights,
    whatever the (real) shift. -/
theorem softmax_mean {ι : Type} [Fintype ι] [Nonempty ι] (α ξ : ι → ℝ) (M : ℝ) :
    Ideal.div (∑ k, Ideal.exp ((α k : ℝ) : EReal) * ((ξ k : ℝ) : EReal)) (∑ k, Ideal.exp ((α k : ℝ) : EReal))
      = ∑ k, Ideal.div (Ideal.exp (((α k : ℝ) : EReal) - ((M : ℝ) : EReal)))
          (∑ k', Ideal.exp (((α k' : ℝ) : EReal) - ((M : ℝ) : EReal))) * ((ξ k : ℝ) : EReal) := by
  -- the two normalisers are positive real numbers
  have hS : (0 : ℝ) < ∑ k, Real.exp (α k) :=
    Finset.sum_pos (fun k _ => Real.exp_pos _) Finset.univ_nonempty
  have hS' : (0 : ℝ) < ∑ k, Real.exp (α k - M) :=
    Finset.sum_pos (fun k _ => Real.exp_pos _) Finset.univ_nonempty
  have hE : (0 : ℝ) < Real.exp M := Real.exp_pos M
  -- every term on either side is a real number: push the coercion to the outside
  have hnum : ∑ k, Ideal.exp ((α k : ℝ) : EReal) * ((ξ k : ℝ) : EReal)
      = ((∑ k, Real.exp (α k) * ξ k : ℝ) : EReal) := by
    rw [← coe_sum_real]
    refine Finset.sum_congr rfl (fun k _ => ?_)
    rw [Ideal.exp_coe, EReal.coe_mul]
  have hden : ∑ k, Ideal.exp ((α k : ℝ) : EReal) = ((∑ k, Real.exp (α k) : ℝ) : EReal) := by
    rw [← coe_sum_real]
    refine Finset.sum_congr rfl (fun k _ => ?_)
    rw [Ideal.exp_coe]
  have hden' : ∑ k, Ideal.exp (((α k : ℝ) : EReal) - ((M : ℝ) : EReal))
      = ((∑ k, Real.exp (α k - M) : ℝ) : EReal) := by
    rw [← coe_sum_real]
    refine Finset.sum_congr rfl (fun k _ => ?_)
    rw [← EReal.coe_sub, Ideal.exp_coe]
  rw [hnum, hden, hden', Ideal.div_coe hS.ne', ← EReal.coe_mul]
  have hterm : ∀ k, Ideal.div (Ideal.exp (((α k : ℝ) : EReal) - ((M : ℝ) : EReal)))
        ((∑ k', Real.exp (α k' - M) : ℝ) : EReal) * ((ξ k : ℝ) : EReal)
      = ((Real.exp (α k - M) * (1 / ∑ k', Real.exp (α k' - M)) * ξ k : ℝ) : EReal) := by
    intro k
    rw [Ideal.div_coe hS'.ne', ← EReal.coe_sub, Ideal.exp_coe, ← EReal.coe_mul, ← EReal.coe_mul]
  rw [Finset.sum_congr rfl (fun k _ => hterm k), coe_sum_real]
  -- what is left is an identity of real numbers: the factor `e^{-M}` cancels
  congr 1
  have hshift : ∑ k, Real.exp (α k - M) = (∑ k, Real.exp (α k)) / Real.exp M := by
    rw [Finset.sum_div]
    exact Finset.sum_congr rfl (fun k _ => Real.exp_sub _ _)
  rw [hshift, Finset.sum_mul]
  refine Finset.sum_congr rfl (fun k _ => ?_)
  rw [Real.exp_sub]
  field_simp

end Cert.SoftAgg

end
-- ==== Proof.RefAgg.lean ====
/-
  The reference computes the weighted mean through the shifted softmax: it subtracts each row's maximum `M(R)`
  before exponentiating, normalises, and only then sums against the features.  For finite scores and features the
  row maximum is a real number, the shift cancels (`softmax_mean`), and the reference's result is the
  specification's `result`, index by index.
-/
import proofs.«422669_j68161130988271_3_alg».proof.Proof.Gen.ReferenceIdeal.Read
import proofs.«422669_j68161130988271_3_alg».proof.Proof.SoftAggLaws

noncomputable section

open scoped BigOperators

namespace Cert.RefAgg

open Idealize.ShloMosaic Idealize.ShloMosaic.ValueIdx Cert.ReferenceIdeal Cert.ReferenceIdeal.Read

/-- The pattern of the number one. -/
theorem ofBits_one : Ideal.ofBits .f32 0x3F800000#32 = 1 := by
  simp [Ideal.ofBits, Ideal.ieee, -EReal.coe_mul]; norm_num

/-- The pattern of minus infinity. -/
theorem ofBits_negInf : Ideal.ofBits .f32 0xFF800000#32 = ⊥ := by
  simp [Ideal.ofBits, Ideal.ieee]

/-- A maximum, from minus infinity, over a nonempty family of real numbers is a real number. -/
theorem fold_max_real {ι : Type} (s : Finset ι) (hs : s.Nonempty) (f : ι → EReal)
    (hf : ∀ k, ∃ r : ℝ, f k = (r : EReal)) : ∃ m : ℝ, s.fold max ⊥ f = (m : EReal) := by
  have hbot : (⊥ : EReal) < s.fold max ⊥ f := by
    rw [Finset.lt_fold_max]
    obtain ⟨k, hk⟩ := hs
    obtain ⟨r, hr⟩ := hf k
    exact Or.inr ⟨k, hk, by rw [hr]; exact EReal.bot_lt_coe r⟩
  have htop : s.fold max ⊥ f < (⊤ : EReal) := by
    rw [Finset.fold_max_lt]
    refine ⟨bot_lt_top, fun k _ => ?_⟩
    obtain ⟨r, hr⟩ := hf k
    rw [hr]; exact EReal.coe_lt_top r
  exact ⟨(s.fold max ⊥ f).toReal, (EReal.coe_toReal htop.ne hbot.ne').symm⟩

/-- The scaled score is the score. -/
theorem v1_at (x1 : (⟨S16384x16384, .f32⟩ : BufTy).Contents (Elt Ideal)) (i : S16384x16384.Idx) :
    val_main_v1 (F := Ideal) x1 i = x1 i := by
  rw [val_main_v1_apply, val_main_v0_apply, val_main_cst_apply, Ideal.mulf_def, Ideal.ofBits_def, ofBits_one, mul_one]

/-- The row maximum of finite scores is a real number. -/
theorem rowMax_real (x1 : (⟨S16384x16384, .f32⟩ : BufTy).Contents (Elt Ideal))
    (h1 : ∀ i, ∃ r : ℝ, x1 i = (r : EReal)) (R : Fin 16384) :
    ∃ m : ℝ, val_main_v4 (F := Ideal) x1 (ix1 R) = (m : EReal) := by
  have hred : S16384x16384.Reduces [1] S16384 := by decide
  rw [val_main_v4_apply, val_main_v3_apply, val_main_cst_1_apply, Ideal.maximumf_def, Ideal.ofBits_def, ofBits_negInf,
    bot_sup_eq]
  unfold val_main_v2
  rw [Host.reduce_eq_fold_single FloatOps.maximumf _ _ Gen.reducesTo_S16384x16384_S16384_d1 hred Gen.h_S_,
    val_main_cst_0_apply, Ideal.ofBits_def, ofBits_negInf]
  refine fold_max_real _ ⟨⟨0, by decide⟩, Finset.mem_univ _⟩ _ (fun k => ?_)
  show ∃ r : ℝ, val_main_v1 (F := Ideal) x1 _ = (r : EReal)
  rw [v1_at]
  exact h1 _

/-- The shifted score at row `R`, column `K`: the score minus the row maximum. -/
theorem v7_at (x1 : (⟨S16384x16384, .f32⟩ : BufTy).Contents (Elt Ideal)) (R K : Fin 16384) :
    val_main_v7 (F := Ideal) x1 (ix2 R K) = x1 (ix2 R K) - val_main_v4 (F := Ideal) x1 (ix1 R) := by
  have e : idx_main_v5 (idx_main_v6 (ix2 R K)) = ix1 R := funext fun a => by match a with | ⟨0, _⟩ => rfl
  rw [val_main_v7_apply, v1_at, val_main_v6_apply, val_main_v5_apply, Ideal.subf_def, e]

/-- The shifted weight. -/
theorem v8_at (x1 : (⟨S16384x16384, .f32⟩ : BufTy).Contents (Elt Ideal)) (R K : Fin 16384) :
    val_main_v8 (F := Ideal) x1 (ix2 R K) = Ideal.exp (x1 (ix2 R K) - val_main_v4 (F := Ideal) x1 (ix1 R)) := by
  rw [val_main_v8_apply, v7_at, Ideal.hostUnary_exp_def]

/-- The shifted normaliser of row `R`. -/
theorem v9_at (x1 : (⟨S16384x16384, .f32⟩ : BufTy).Contents (Elt Ideal)) (R : Fin 16384) :
    val_main_v9 (F := Ideal) x1 (ix1 R)
      = ∑ K : Fin 16384, Ideal.exp (x1 (ix2 R K) - val_main_v4 (F := Ideal) x1 (ix1 R)) := by
  rw [val_main_v9_apply, val_main_cst_2_apply, Ideal.ofBits_def, Ideal.ofBits_zero_f32, zero_add]
  refine Finset.sum_congr rfl fun K _ => ?_
  have e : idx_main_v9 (ix1 R) K = ix2 R K :=
    funext fun a => by match a with | ⟨0, _⟩ => rfl | ⟨1, _⟩ => rfl
  rw [e, v8_at]

/-- The normalised shifted weight. -/
theorem v12_at (x1 : (⟨S16384x16384, .f32⟩ : BufTy).Contents (Elt Ideal)) (R K : Fin 16384) :
    val_main_v12 (F := Ideal) x1 (ix2 R K)
      = Ideal.div (Ideal.exp (x1 (ix2 R K) - val_main_v4 (F := Ideal) x1 (ix1 R)))
          (∑ K' : Fin 16384, Ideal.exp (x1 (ix2 R K') - val_main_v4 (F := Ideal) x1 (ix1 R))) := by
  have e : idx_main_v10 (idx_main_v11 (ix2 R K)) = ix1 R := funext fun a => by match a with | ⟨0, _⟩ => rfl
  rw [val_main_v12_apply, v8_at, val_main_v11_apply, val_main_v10_apply, Ideal.hostDivf_def, e, v9_at]

/-- The aggregated feature `e` of row `R`, as the reference computes it. -/
theorem v13_at (x0 : (⟨S16384x128, .f32⟩ : BufTy).Contents (Elt Ideal))
    (x1 : (⟨S16384x16384, .f32⟩ : BufTy).Contents (Elt Ideal)) (R : Fin 16384) (e : Fin 128) :
    val_main_v13 (F := Ideal) x0 x1 (ix2 R e)
      = ∑ K : Fin 16384, Ideal.div (Ideal.exp (x1 (ix2 R K) - val_main_v4 (F := Ideal) x1 (ix1 R)))
          (∑ K' : Fin 16384, Ideal.exp (x1 (ix2 R K') - val_main_v4 (F := Ideal) x1 (ix1 R))) * x0 (ix2 K e) := by
  rw [val_main_v13_apply]
  refine Finset.sum_congr rfl fun K _ => ?_
  have el : lidx_main_v13 (ix2 R e) K = ix2 R K :=
    funext fun a => by match a with | ⟨0, _⟩ => rfl | ⟨1, _⟩ => rfl
  have er : ridx_main_v13 (ix2 R e) K = ix2 K e :=
    funext fun a => by match a with | ⟨0, _⟩ => rfl | ⟨1, _⟩ => rfl
  rw [el, er, v12_at]

/-- For finite adjacency and features, the reference's last stage is the specification's result. -/
theorem ref_eq_result
    (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal))
    (h0 : ∀ i, ∃ r : ℝ, x0 i = (r : EReal)) (h1 : ∀ i, ∃ r : ℝ, x1 i = (r : EReal)) :
    val_main_v17 (F := Ideal) x0 x1 x2 x3 = Cert.SoftAgg.result x0 x1 x2 x3 := by
  funext i
  obtain ⟨R, d, rfl⟩ : ∃ R d, i = ix2 R d := ⟨i 0, i 1, eq_ix2 i⟩
  -- the row maximum is a real number, and so is every score and every feature
  obtain ⟨m, hm⟩ := rowMax_real x1 h1 R
  choose α hα using h1
  choose ξ hξ using h0
  have e3 : idx_main_v15 (idx_main_v16 (ix2 R d)) = ix1 d := funext fun a => by match a with | ⟨0, _⟩ => rfl
  rw [val_main_v17_apply, val_main_v14_apply, val_main_v16_apply, val_main_v15_apply, Ideal.addf_def, e3]
  show _ = (∑ e : Fin 128, Ideal.div (Cert.SoftAgg.rowAcc x1 x0 R e) (Cert.SoftAgg.rowSum x1 R) * x2 (ix2 e d))
    + x3 (ix1 d)
  refine congrArg (· + x3 (ix1 d)) ?_
  refine Finset.sum_congr rfl fun e _ => ?_
  have el : lidx_main_v14 (ix2 R d) e = ix2 R e :=
    funext fun a => by match a with | ⟨0, _⟩ => rfl | ⟨1, _⟩ => rfl
  have er : ridx_main_v14 (ix2 R d) e = ix2 e d :=
    funext fun a => by match a with | ⟨0, _⟩ => rfl | ⟨1, _⟩ => rfl
  rw [el, er, v13_at, Cert.SoftAgg.rowSum_eq, Cert.SoftAgg.rowAcc_eq, hm]
  refine congrArg (· * x2 (ix2 e d)) ?_
  -- the shift by the real row maximum cancels
  simp only [hα, hξ]
  exact (Cert.SoftAgg.softmax_mean (fun K => α (ix2 R K)) (fun K => ξ (ix2 K e)) m).symm

end Cert.RefAgg

end
-- ==== Proof.FiniteInputs.lean ====
/-
  The precondition asks of every float input that each entry's absolute value lie strictly below +∞.
  Read on the extended reals, where |x| is max x (-x), this excludes both infinities (and the junk value ⊥),
  so every entry of the first two arguments is the coercion of a real number.
-/
import proofs.«422669_j68161130988271_3_alg».proof.Pre_finite_inputs
import proofs.«422669_j68161130988271_3_alg».proof.Proof.Gen.Pre_finite_inputs
import Idealize.ShloMosaic.Lib.ReduceAll
import Idealize.ShloMosaic.Lib.ValueIdx
import Idealize.ShloMosaic.PureOps.Ideal.Laws
noncomputable section
namespace Cert.FiniteInputs
open Idealize.ShloMosaic Idealize.ShloMosaic.ValueIdx

/-- The scalar shape has exactly one index. -/
instance : Subsingleton Cert.Pre_finite_inputs.S_.Idx := ⟨fun a b => funext fun d => d.elim0⟩

/-- An extended real whose absolute value `max x (-x)` lies strictly below `⊤` is a real number:
    at `⊤` the maximum is `⊤`, at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` answering 1 makes `x` a real number. The pattern `0x7F800000`
    denotes `⊤`, and the ordered comparison is the strict order of the extended reals. -/
theorem real_of_olt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  apply real_of_abs_lt_top
  by_contra hn
  simp [hn] at h'

/-- The precondition at the ideal values: every entry of the first two arguments is a real number. -/
theorem real_of_pre [Cert.Pre_finite_inputs.Facts]
    (x0 : FVec Ideal Cert.Pre_finite_inputs.S16384x128 .f32) (x1 : FVec Ideal Cert.Pre_finite_inputs.S16384x16384 .f32)
    (x2 : FVec Ideal Cert.Pre_finite_inputs.S128x128 .f32) (x3 : FVec Ideal Cert.Pre_finite_inputs.S128 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨e0, e1⟩, -⟩, -⟩ := h0
  refine ⟨fun i => ?_, fun i => ?_⟩
  · exact real_of_olt_inf (x0 i) (Host.reduce_andi_all _ _ _ _ _ e0 i)
  · exact real_of_olt_inf (x1 i) (Host.reduce_andi_all _ _ _ _ _ e1 i)
end Cert.FiniteInputs
end
-- ==== Proof.lean ====
/-
  The certificate of the softmax aggregation followed by one affine layer.

  Kernel and reference compute `out(R,d) = ∑_e h(R,e) · w(e,d) + b(d)` with `h(R,e)` the mean of the features
  `x(K,e)` under the weights `exp a(R,K)` of row `R` of the adjacency.  The kernel accumulates the numerator
  `∑_K exp a(R,K) · x(K,e)` and the normaliser `∑_K exp a(R,K)` over eight column blocks and divides once at the
  end (Proof/Accumulate.lean, Proof/KernelValue.lean); the reference shifts each row by its maximum, normalises the
  weights first and sums afterwards (Proof/RefAgg.lean).  For finite adjacency and features — which the precondition
  gives (Proof/FiniteInputs.lean) — the shift cancels and the division distributes over the finite sum
  (Proof/SoftAggLaws.lean), so both arrays are the specification's `result` (Proof/SoftAgg.lean) of the arguments.
  The three frames are the generated ones (the reference's is its generated run with the result dropped); the ideal
  pass rewrote nothing, so the kernel's idealization preserves it trivially.
-/
import proofs.«422669_j68161130988271_3_alg».proof.Defs
import proofs.«422669_j68161130988271_3_alg».proof.Proof.Gen.Kernel
import proofs.«422669_j68161130988271_3_alg».proof.Proof.Gen.Kernel.Skeleton
import proofs.«422669_j68161130988271_3_alg».proof.Proof.Gen.Kernel.Launch
import proofs.«422669_j68161130988271_3_alg».proof.Proof.Gen.Kernel.Points
import proofs.«422669_j68161130988271_3_alg».proof.Proof.Gen.Kernel.Frame
import proofs.«422669_j68161130988271_3_alg».proof.Proof.Gen.KernelIdeal
import proofs.«422669_j68161130988271_3_alg».proof.Proof.Gen.KernelIdeal.Skeleton
import proofs.«422669_j68161130988271_3_alg».proof.Proof.Gen.KernelIdeal.Launch
import proofs.«422669_j68161130988271_3_alg».proof.Proof.Gen.KernelIdeal.Points
import proofs.«422669_j68161130988271_3_alg».proof.Proof.Gen.KernelIdeal.Frame
import proofs.«422669_j68161130988271_3_alg».proof.Proof.Gen.ReferenceIdeal
import proofs.«422669_j68161130988271_3_alg».proof.Proof.Gen.Pre_finite_inputs
import proofs.«422669_j68161130988271_3_alg».proof.Proof.Gen.KernelIdeal.Value
import proofs.«422669_j68161130988271_3_alg».proof.Proof.Gen.ReferenceIdeal.Run
import proofs.«422669_j68161130988271_3_alg».proof.Proof.Gen.ReferenceIdeal.Read
import proofs.«422669_j68161130988271_3_alg».proof.Proof.KernelValue
import proofs.«422669_j68161130988271_3_alg».proof.Proof.RefAgg
import proofs.«422669_j68161130988271_3_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments alone: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's result of arguments that agree and are finite. -/
theorem algebraic : Cert.algebraic_KernelIdeal_ReferenceIdeal := by
  intro m ρ m' ρ' hpre hagree
  refine ⟨fun c => Cert.KernelAgg.resultOf m c, Cert.KernelAgg.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha⟩ := Cert.FiniteInputs.real_of_pre _ _ _ _ (hpre c)
  rw [Cert.ReferenceIdeal.Read.val_main_v17_eq, (hagree c).1, (hagree c).2.1, (hagree c).2.2.1, (hagree c).2.2.2]
  exact Cert.RefAgg.ref_eq_result _ _ _ _ hx ha

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
